-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x3 : Shape := ⟨3, ![128, 1024, 3]⟩
abbrev S128x32 : Shape := ⟨2, ![128, 32]⟩
abbrev S_ : Shape := ⟨0, ![]⟩

class Facts : Prop where
  bcast_S_S128x1024x3 : S_.BroadcastsInDim S128x1024x3 (![] : Fin 0 → Fin S128x1024x3.rank)
  reducesTo_S128x1024x3_S_d0_1_2 : S128x1024x3.ReducesTo [0, 1, 2] S_
  h_S_ : 0 < S_.numel
  bcast_S_S128x32 : S_.BroadcastsInDim S128x32 (![] : Fin 0 → Fin S128x32.rank)
  reducesTo_S128x32_S_d0_1 : S128x32.ReducesTo [0, 1] S_

variable [Facts]

def fn_part1 {F : FTy → Type} [FloatOps F] (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  main_v18

def fn {F : FTy → Type} [FloatOps F] (main_arg0 : FVec F S128x1024x3 .f32) (main_arg1 : FVec F S128x1024x3 .f32) (main_arg2 : FVec F S128x32 .f32) (main_arg3 : FVec F S128x32 .f32) : IVec S_ 1 :=
  let main_v0 : FVec F S128x1024x3 .f32 := Host.absf main_arg0
  let main_cst : FVec F S_ .f32 := constant S_ .f32 0x7F800000#32
  let main_v1 : FVec F S128x1024x3 .f32 := broadcastInDim S128x1024x3 ![] bcast_S_S128x1024x3 main_cst
  let main_v2 : IVec S128x1024x3 1 := cmpf .olt main_v0 main_v1
  let main_c : IVec S_ 1 := constantI S_ 1 1#1
  let main_v3 : IVec S_ 1 := (fun x v => Host.reduce IntOp.andi x v reducesTo_S128x1024x3_S_d0_1_2 h_S_) main_v2 main_c
  let main_v4 : FVec F S128x1024x3 .f32 := Host.absf main_arg1
  let main_cst_0 : FVec F S_ .f32 := constant S_ .f32 0x7F800000#32
  let main_v5 : FVec F S128x1024x3 .f32 := broadcastInDim S128x1024x3 ![] bcast_S_S128x1024x3 main_cst_0
  let main_v6 : IVec S128x1024x3 1 := cmpf .olt main_v4 main_v5
  let main_c_1 : IVec S_ 1 := constantI S_ 1 1#1
  let main_v7 : IVec S_ 1 := (fun x v => Host.reduce IntOp.andi x v reducesTo_S128x1024x3_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_v13 main_v16
-- ==== Kernel.lean ====
abbrev S128x1024x3 : Shape := ⟨3, ![128, 1024, 3]⟩
abbrev S128x32 : Shape := ⟨2, ![128, 32]⟩
abbrev S2x1x1 : Shape := ⟨3, ![2, 1, 1]⟩
abbrev S1x1024x3 : Shape := ⟨3, ![1, 1024, 3]⟩
abbrev S1x1x1 : Shape := ⟨3, ![1, 1, 1]⟩
abbrev S1024x3 : Shape := ⟨2, ![1024, 3]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩
abbrev S1x1 : Shape := ⟨2, ![1, 1]⟩
abbrev S_ : Shape := ⟨0, ![]⟩

abbrev nBuf : Space → Nat
  | .hbm => 25
  | .vmem => 6
  | .smem => 0
  | _ => 0

abbrev bufTy : (tb : Table) → Fin (tcTables nBuf tb) → BufTy
  | .hbm, ⟨0, _⟩ => ⟨S128x1024x3, .f32⟩
  | .hbm, ⟨1, _⟩ => ⟨S128x1024x3, .f32⟩
  | .hbm, ⟨2, _⟩ => ⟨S128x32, .f32⟩
  | .hbm, ⟨3, _⟩ => ⟨S128x32, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128x32, .f32⟩
  | .hbm, ⟨11, _⟩ => ⟨S128x32, .f32⟩
  | .hbm, ⟨12, _⟩ => ⟨S128x32, .f32⟩
  | .hbm, ⟨13, _⟩ => ⟨S128x32, .f32⟩
  | .hbm, ⟨14, _⟩ => ⟨S128x32, .f32⟩
  | .hbm, ⟨15, _⟩ => ⟨S128x32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1, .f32⟩
  | .local _ .vmem, ⟨5, _⟩ => ⟨S1x1x1, .f32⟩
  | _, _ => ⟨S128x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024x1_S1x1024 : S1024x1.ShapeCasts S1x1024
  broadcasts_S1024x1_S1024x1024 : S1024x1.Broadcasts S1024x1024
  broadcasts_S1x1024_S1024x1024 : S1x1024.Broadcasts S1024x1024
  reduces_S1024x1024_S1024 : S1024x1024.Reduces [0] S1024
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  reduces_S1024x1024_S1024_2 : S1024x1024.Reduces [1] S1024
  shapeCasts_S1x1x1_S1x1x1 : S1x1x1.ShapeCasts S1x1x1
  reducesTo_S2x1x1_S_d0_1_2 : S2x1x1.ReducesTo [0, 1, 2] S_
  h_S_ : 0 < S_.numel
  bcast_S_S128x32 : S_.BroadcastsInDim S128x32 (![] : Fin 0 → Fin S128x32.rank)
  reducesTo_S128x32_S_d0_1 : S128x32.ReducesTo [0, 1] S_
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S128x1024x3.size a
  hwx0_0 : ∀ i : grid0.Coords, EltTy.bits .f32 = 32 ∨ (Rect.block (s := S128x1024x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S128x1024x3.size a
  hwx0_1 : ∀ i : grid0.Coords, EltTy.bits .f32 = 32 ∨ (Rect.block (s := S128x1024x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024x3 : Shape := ⟨3, ![128, 1024, 3]⟩
abbrev S128x32 : Shape := ⟨2, ![128, 32]⟩
abbrev S_ : Shape := ⟨0, ![]⟩
abbrev S128x1024 : Shape := ⟨2, ![128, 1024]⟩
abbrev S128x1024x1024 : Shape := ⟨3, ![128, 1024, 1024]⟩
abbrev S128x1024x1 : Shape := ⟨3, ![128, 1024, 1]⟩
abbrev S128x1x1024 : Shape := ⟨3, ![128, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S128x1024x3, .f32⟩
  | .hbm, ⟨1, _⟩ => ⟨S128x1024x3, .f32⟩
  | .hbm, ⟨2, _⟩ => ⟨S128x32, .f32⟩
  | .hbm, ⟨3, _⟩ => ⟨S128x32, .f32⟩
  | .hbm, ⟨4, _⟩ => ⟨S128x1024x3, .f32⟩
  | .hbm, ⟨5, _⟩ => ⟨S_, .f32⟩
  | .hbm, ⟨6, _⟩ => ⟨S128x1024, .f32⟩
  | .hbm, ⟨7, _⟩ => ⟨S128x1024x3, .f32⟩
  | .hbm, ⟨8, _⟩ => ⟨S_, .f32⟩
  | .hbm, ⟨9, _⟩ => ⟨S128x1024, .f32⟩
  | .hbm, ⟨10, _⟩ => ⟨S128x1024x1024, .f32⟩
  | .hbm, ⟨11, _⟩ => ⟨S128x1024x1, .f32⟩
  | .hbm, ⟨12, _⟩ => ⟨S128x1x1024, .f32⟩
  | .hbm, ⟨13, _⟩ => ⟨S128x1024x1024, .f32⟩
  | .hbm, ⟨14, _⟩ => ⟨S128x1024x1024, .f32⟩
  | .hbm, ⟨15, _⟩ => ⟨S128x1024x1024, .f32⟩
  | .hbm, ⟨16, _⟩ => ⟨S_, .f32⟩
  | .hbm, ⟨17, _⟩ => ⟨S128x1024x1024, .f32⟩
  | .hbm, ⟨18, _⟩ => ⟨S128x1024x1024, .f32⟩
  | .hbm, ⟨19, _⟩ => ⟨S128x1024x1024, .f32⟩
  | .hbm, ⟨20, _⟩ => ⟨S_, .f32⟩
  | .hbm, ⟨21, _⟩ => ⟨S128x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S128x32, .f32⟩
  | .hbm, ⟨33, _⟩ => ⟨S128x32, .f32⟩
  | .hbm, ⟨34, _⟩ => ⟨S128x32, .f32⟩
  | .hbm, ⟨35, _⟩ => ⟨S128x32, .f32⟩
  | .hbm, ⟨36, _⟩ => ⟨S128x32, .f32⟩
  | .hbm, ⟨37, _⟩ => ⟨S128x32, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S128x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  reducesTo_S128x1024x3_S128x1024_d2 : S128x1024x3.ReducesTo [2] S128x1024
  h_S_ : 0 < S_.numel
  bcast_S128x1024_S128x1024x1_0_1 : S128x1024.BroadcastsInDim S128x1024x1 (![0, 1] : Fin 2 → Fin S128x1024x1.rank)
  bcast_S128x1024_S128x1x1024_0_2 : S128x1024.BroadcastsInDim S128x1x1024 (![0, 2] : Fin 2 → Fin S128x1x1024.rank)
  bcast_S128x1024x1_S128x1024x1024_0_1_2 : S128x1024x1.BroadcastsInDim S128x1024x1024 (![0, 1, 2] : Fin 3 → Fin S128x1024x1024.rank)
  bcast_S128x1x1024_S128x1024x1024_0_1_2 : S128x1x1024.BroadcastsInDim S128x1024x1024 (![0, 1, 2] : Fin 3 → Fin S128x1024x1024.rank)
  bcast_S_S128x1024x1024 : S_.BroadcastsInDim S128x1024x1024 (![] : Fin 0 → Fin S128x1024x1024.rank)
  reducesTo_S128x1024x1024_S128x1024_d1 : S128x1024x1024.ReducesTo [1] S128x1024
  reducesTo_S128x1024_S_d0_1 : S128x1024.ReducesTo [0, 1] S_
  reducesTo_S128x1024x1024_S128x1024_d2 : S128x1024x1024.ReducesTo [2] S128x1024
  bcast_S_S128x32 : S_.BroadcastsInDim S128x32 (![] : Fin 0 → Fin S128x32.rank)
  reducesTo_S128x32_S_d0_1 : S128x32.ReducesTo [0, 1] S_
  dot_S128x1024x3_S128x1024x3_S128x1024x1024_2_2_1_1_0_0_wf : DotDims.WF S128x1024x3 S128x1024x3 S128x1024x1024 [2] [2] [1] [1] [0] [0]

variable [Facts₀]

def dot_S128x1024x3_S128x1024x3_S128x1024x1024_2_2_1_1_0_0 : DotDims S128x1024x3 S128x1024x3 S128x1024x1024 where
  lhsContracting := [2]
  rhsContracting := [2]
  lhsNonContracting := [1]
  rhsNonContracting := [1]
  lhsBatch := [0]
  rhsBatch := [0]
  wf := dot_S128x1024x3_S128x1024x3_S128x1024x1024_2_2_1_1_0_0_wf

class Facts : Prop extends Facts₀ where

variable [Facts]
-- ==== Proof.KernelPieces.lean ====
/-
  What one grid point of the kernel leaves in the accumulator's one-element block, and what its two input blocks are.

  The grid is 2 × 64: point `t` (row-major, `t < 128`) works on batch element `t`.  The body first stores zero into
  the accumulator when `t` is the first point of a run of 64, then loads both input blocks and the accumulator and
  stores one value back.  So after a first point the block holds the body's arithmetic applied to the two blocks and
  the ZERO block (`out_A`), and after any other point the same arithmetic applied to the two blocks and what the point
  before left (`out_B`).  Input block 0 at point `t` is batch element `t` of argument 1, input block 1 is batch
  element `t` of argument 0 (`blk0_apply`, `blk1_apply`); the output block at point `t` is entry `t / 64` of the
  two-entry result array, written back only at the last point of a run (`idx_facts`).
-/
import proofs.«141618_j54142357734099_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Chamfer.Kern

open Cert.KernelIdeal Cert.KernelIdeal.Gen

variable {F : FTy → Type} [FloatOps F]

theorem hz : (![0, 0, 0] : Fin 3 → Nat) = fun _ => 0 := funext fun a => by fin_cases a <;> rfl

/-- A point that is not the first of its run: the block ends at the body's arithmetic of the two input blocks and of
    what the block held before. -/
theorem out_B (c : Dev nD) (i : grid0.Coords) (a2 : Memref sig .tc .vmem S1x1024x3 .f32) (h2 : a2.IsWhole)
    (a3 : Memref sig .tc .vmem S1x1024x3 .f32) (h3 : a3.IsWhole) (a4 : Memref sig .tc .vmem S1x1x1 .f32) (h4 : a4.IsWhole)
    (hc : ¬cond0_0 i) (x0 x1 : Vec F S1x1024x3 .f32) (xo : Vec F S1x1x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S1x1024x3) hz,
    View.ld_unit_zero (S := S1x1x1) hz]

/-- The first point of a run: the zero block is stored first and read back, so the block ends at the same arithmetic
    of the two input blocks and of the zero block. -/
theorem out_A (c : Dev nD) (i : grid0.Coords) (a2 : Memref sig .tc .vmem S1x1024x3 .f32) (h2 : a2.IsWhole)
    (a3 : Memref sig .tc .vmem S1x1024x3 .f32) (h3 : a3.IsWhole) (a4 : Memref sig .tc .vmem S1x1x1 .f32) (h4 : a4.IsWhole)
    (hc : cond0_0 i) (x0 x1 : Vec F S1x1024x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz, View.readCov_unit_zero (S := S1x1x1) _ hz]
  simp only [View.readAt_eq_ld, h2.read_unread, h3.read_unread, View.ld_unit_zero (S := S1x1024x3) hz,
    View.ld_unit_zero (S := S1x1x1) hz]

/-- The three index maps over the grid: both inputs sit at batch element `t`, the output at entry `t / 64`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val / 64 ∧ win0_2.index t (1 : Fin 3) = 0 ∧ win0_2.index t (2 : Fin 3) = 0 :=
  (by decide +kernel : ∀ t : Fin grid0.N, _)

theorem lt128 (t : Fin cfg0.N) : t.val < 128 := lt_of_lt_of_eq t.isLt (show cfg0.N = 128 from N_0)

variable (m : (ℓ : Loc nD τ sig) → Buf (Elt F) ℓ)

/-- Input block 0 at point `t`, at point `n` and coordinate `d`: argument 1 at batch element `t`. -/
theorem blk0_apply (c : Dev nD) (t : Fin cfg0.N) (n : Fin 1024) (d : Fin 3) :
    (iblk m c 0 t : Vec F S1x1024x3 .f32) (ix3 0 n d)
      = (m ((c : Thread nD τ).loc main_arg1) : Vec F S128x1024x3 .f32) (ix3 ⟨t.val, lt128 t⟩ n d) := by
  obtain ⟨e0, e1, e2, -⟩ := idx_facts t
  unfold iblk
  rw [View.read_apply]
  show V m c main_arg1 _ = m ((c : Thread nD τ).loc main_arg1) _
  unfold V
  congr 1
  funext a
  apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 3 + 1 * d.val = d.val; omega

/-- Input block 1 at point `t`, at point `n` and coordinate `d`: argument 0 at batch element `t`. -/
theorem blk1_apply (c : Dev nD) (t : Fin cfg0.N) (n : Fin 1024) (d : Fin 3) :
    (iblk m c 1 t : Vec F S1x1024x3 .f32) (ix3 0 n d)
      = (m ((c : Thread nD τ).loc main_arg0) : Vec F S128x1024x3 .f32) (ix3 ⟨t.val, lt128 t⟩ n d) := by
  obtain ⟨-, -, -, e0, e1, e2, -⟩ := idx_facts t
  unfold iblk
  rw [View.read_apply]
  show V m c main_arg0 _ = m ((c : Thread nD τ).loc main_arg0) _
  unfold V
  congr 1
  funext a
  apply Fin.ext
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 3 + 1 * d.val = d.val; omega

/-- An entry of the two-entry result array lies in point `t`'s output block iff it is entry `t / 64`. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v0).slice (win0_2.rect t)).set ↔ _
  rw [View.set_slice_whole, Rect.mem_set_unit]
  exact Iff.rfl

end Cert.Chamfer.Kern

end
-- ==== Proof.ChamferSpec.lean ====
/-
  The function both programs compute, stated once over the extended reals.

  A batch element holds two clouds of 1024 points in 3-space, `p` and `q`.  With
  `|p n|² = Σ_d (p n d)²` and `⟨p n, q k⟩ = Σ_d p n d · q k d`, the squared distance is taken in the expanded form
  `dist p q n k = (|p n|² + |q k|²) − 2·⟨p n, q k⟩`.  Every point of `q` is matched with its nearest point of `p`
  (`nearP`, a minimum over `n` started from +∞) and every point of `p` with its nearest point of `q` (`nearQ`,
  a minimum over `k`); the batch element's loss is the sum of both families of minima (`pairLoss`).

  The whole result is `(Σ_b pairLoss) / 1024 + tail`, where `tail` is the Kullback–Leibler term
  `((−½ · Σ (1 + lv − mu² − exp lv)) / 32) · 0.1` of the two small arrays.  One program sums the 128 losses in two
  runs of 64 consecutive batch elements, each run accumulated from zero one element at a time, and then adds the two
  partial sums; the other sums all minima of the first family, all minima of the second, and adds those two numbers.
  Addition of extended reals is commutative and associative, so both groupings are the same sum (`run_split`,
  `sum_runs`, `sum_families`): no finiteness of the inputs is used.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- One cloud: 1024 points with 3 coordinates. -/
abbrev Cloud : Type := Fin 1024 → Fin 3 → EReal

/-- The factor `2` of the expanded square, as the word both programs print. -/
def two : EReal := Ideal.ofBits .f32 0x40000000#32
/-- The value both programs start a minimum from (the word of +∞). -/
def top : EReal := Ideal.ofBits .f32 0x7F800000#32

/-- `|p n|²`. -/
def sqn (p : Cloud) (n : Fin 1024) : EReal := ∑ d : Fin 3, p n d * p n d
/-- `⟨p n, q k⟩`. -/
def dotp (p q : Cloud) (n k : Fin 1024) : EReal := ∑ d : Fin 3, p n d * q k d
/-- The squared distance between point `n` of `p` and point `k` of `q`, in expanded form. -/
def dist (p q : Cloud) (n k : Fin 1024) : EReal := (sqn p n + sqn q k) - two * dotp p q n k
/-- For point `k` of `q`: the least squared distance to a point of `p`. -/
def nearP (p q : Cloud) (k : Fin 1024) : EReal :=
  (Finset.univ : Finset (Fin 1024)).fold min top (fun n => dist p q n k)
/-- For point `n` of `p`: the least squared distance to a point of `q`. -/
def nearQ (p q : Cloud) (n : Fin 1024) : EReal :=
  (Finset.univ : Finset (Fin 1024)).fold min top (fun k => dist p q n k)
/-- One batch element's loss: both families of minima, summed. -/
def pairLoss (p q : Cloud) : EReal := (∑ k : Fin 1024, nearP p q k) + (∑ n : Fin 1024, nearQ p q n)

/-- The array of all 128 batch elements, and batch element `b` of it as a cloud. -/
abbrev Arr : Type := (⟨3, ![128, 1024, 3]⟩ : Shape).Idx → EReal
def cloud (x : Arr) (b : Fin 128) : Cloud := fun n d => x (ix3 b n d)
/-- A one-element block of such an array as a cloud. -/
abbrev Blk : Type := (⟨3, ![1, 1024, 3]⟩ : Shape).Idx → EReal
def blkCloud (v : Blk) : Cloud := fun n d => v (ix3 0 n d)

/-- The loss of batch element `b`, and the same over the naturals (zero past the last element). -/
def lossAt (x r : Arr) (b : Fin 128) : EReal := pairLoss (cloud x b) (cloud r b)
def lossNat (x r : Arr) (b : ℕ) : EReal := if h : b < 128 then lossAt x r ⟨b, h⟩ else 0
/-- The sum of all 128 losses. -/
def lossSum (x r : Arr) : EReal := ∑ b : Fin 128, lossAt x r b

theorem lossNat_of_lt (x r : Arr) (b : ℕ) (h : b < 128) : lossNat x r b = lossAt x r ⟨b, h⟩ := dif_pos h

/-! ## The accumulation over a run of 64 consecutive batch elements -/

/-- What the accumulator holds after batch element `n`: it restarts from zero at the multiples of 64 and otherwise
    adds the element's loss to what it held. -/
def accum (L : ℕ → EReal) : ℕ → EReal
  | 0 => 0 + L 0
  | n + 1 => if (n + 1) % 64 = 0 then 0 + L (n + 1) else accum L n + L (n + 1)

/-- The accumulator after element `n` is the sum of the losses from the start of `n`'s run up to `n`. -/
theorem accum_eq (L : ℕ → EReal) (n : ℕ) :
    accum L n = ∑ j ∈ Finset.range (n % 64 + 1), L (64 * (n / 64) + j) := by
  induction n with
  | zero => simp [accum]
  | succ n ih =>
    unfold accum
    by_cases h : (n + 1) % 64 = 0
    · rw [if_pos h, h, zero_add, Finset.sum_range_one]
      exact congrArg L (by omega)
    · have e : 64 * (n / 64) + (n % 64 + 1) = n + 1 := by omega
      rw [if_neg h, ih, show (n + 1) % 64 + 1 = (n % 64 + 1) + 1 by omega,
        show (n + 1) / 64 = n / 64 by omega, Finset.sum_range_succ _ (n % 64 + 1), e]

/-- At the last element of run `c` the accumulator holds the run's whole sum. -/
theorem accum_last (L : ℕ → EReal) (c : ℕ) :
    accum L (64 * c + 63) = ∑ j ∈ Finset.range 64, L (64 * c + j) := by
  rw [accum_eq, show (64 * c + 63) % 64 + 1 = 64 by omega, show (64 * c + 63) / 64 = c by omega]

/-- The two runs together are all 128 elements. -/
theorem sum_runs (x r : Arr) :
    (∑ j ∈ Finset.range 64, lossNat x r (64 * 0 + j)) + (∑ j ∈ Finset.range 64, lossNat x r (64 * 1 + j))
      = lossSum x r := by
  have h := Finset.sum_range_add (lossNat x r) 64 64
  simp only [Nat.mul_zero, Nat.zero_add, Nat.mul_one]
  rw [← h, Finset.sum_range (n := 64 + 64)]
  exact Finset.sum_congr rfl fun b _ => lossNat_of_lt x r b.val b.isLt

/-- Summing each family of minima over all batch elements, then adding the two totals, is the sum of the losses. -/
theorem sum_families (x r : Arr) :
    (∑ i : (⟨2, ![128, 1024]⟩ : Shape).Idx, nearP (cloud x (i 0)) (cloud r (i 0)) (i 1))
      + (∑ i : (⟨2, ![128, 1024]⟩ : Shape).Idx, nearQ (cloud x (i 0)) (cloud r (i 0)) (i 1))
      = lossSum x r := by
  rw [sum_idx2, sum_idx2, ← Finset.sum_add_distrib]
  rfl

end Cert.Chamfer

end
-- ==== Proof.PayValue.lean ====
/-
  The two values the body of the chamfer kernel stores, read at an index, over the extended reals.

  A grid step holds one batch element: two blocks `[1, 1024, 3]`, whose unit axis dropped are the clouds `p` and `q`.
  The body forms `|p n|²` and `|q k|²` as sums along the coordinate axis, lays the first as a column and the second as a
  row, forms the matrix of inner products `⟨p n, q k⟩` as a product contracted over the coordinate axis, and from the three
  the array `dist p q n k = (|p n|² + |q k|²) − 2·⟨p n, q k⟩`. A minimum along the first axis gives `nearP`, a minimum
  along the second `nearQ`; each family is summed, the two sums are added, and the result is added to what the
  accumulator held. Each operation that is not pointwise is read at explicit coordinates by a lemma of its own
  (a vector laid as a column, a column laid as a row, a column spread over columns, a sum and a minimum along one axis of a
  matrix, the contracted product); `pay2_apply` then walks the term from the outside in.
-/
import proofs.«141618_j54142357734099_1_alg».proof.Proof.Gen.KernelIdeal.Skeleton
import proofs.«141618_j54142357734099_1_alg».proof.Proof.ChamferSpec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.Chamfer.Pay

open Idealize.ShloMosaic Idealize.ShloMosaic.ValueIdx Cert.KernelIdeal

/-! ## Layout operations at coordinates: a vector as a column, a column as a row, a column spread over columns -/

section Layout
variable {α : Type}

/-- A vector of length `a` cast to a column `[a, 1]` reads, at `(i, u)`, the operand at `i`. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]` reads, at `(u, i)`, the operand at `(i, 0)`. -/
theorem cast_a1_1a {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(i, j)`, the operand at `(i, 0)`. -/
theorem bcast_a1_ab {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- The element a `vector.extract` at position `[0, 0]` takes from a `[1, 1]` array. -/
theorem extract_00 (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) :=
  congrArg x (funext fun ax => Fin.ext (by
    match ax with
    | ⟨0, _⟩ => rfl
    | ⟨1, _⟩ => rfl))

end Layout

/-! ## Reductions along one axis of a matrix, at coordinates -/

/-- A sum along the second axis of an `[a, b]` array read at `i`: the sum over `j` of the entries `(i, j)`. -/
theorem sum_axis1 {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ x 0x00000000#32 h hφ hacc (ix1 i) = ∑ j : Fin b, x (ix2 i j) := by
  refine (Ideal.multiReduction_add_single x 0x00000000#32 h hφ hacc (ix1 i)).trans ?_
  exact Finset.sum_congr rfl fun j _ => congrArg x (funext fun ax => Fin.ext (by
    match ax with
    | ⟨0, _⟩ => rfl
    | ⟨1, _⟩ => rfl))

/-- A minimum over ONE axis from the accumulator's value: the fold of `min` over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum along the first axis of an `[a, b]` array read at `j`: over `i`, of the entries `(i, j)`. -/
theorem min_axis0 {a b : ℕ} (x : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (j : Fin b) :
    multiReduction .minimumf [0] ⟨1, ![b]⟩ x acc h hφ hacc (ix1 j)
      = (Finset.univ : Finset (Fin a)).fold min (Ideal.ofBits .f32 acc) (fun i => x (ix2 i j)) :=
  (multiReduction_minimumf_single x acc h hφ hacc (ix1 j)).trans
    (congrArg (fun f : Fin a → EReal => (Finset.univ : Finset (Fin a)).fold min (Ideal.ofBits .f32 acc) f)
      (funext fun i => congrArg x (funext fun ax => Fin.ext (by
        match ax with
        | ⟨0, _⟩ => rfl
        | ⟨1, _⟩ => rfl))))

/-- A minimum along the second axis of an `[a, b]` array read at `i`: over `j`, of the entries `(i, j)`. -/
theorem min_axis1 {a b : ℕ} (x : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (i : Fin a) :
    multiReduction .minimumf [1] ⟨1, ![a]⟩ x acc h hφ hacc (ix1 i)
      = (Finset.univ : Finset (Fin b)).fold min (Ideal.ofBits .f32 acc) (fun j => x (ix2 i j)) :=
  (multiReduction_minimumf_single x acc h hφ hacc (ix1 i)).trans
    (congrArg (fun f : Fin b → EReal => (Finset.univ : Finset (Fin b)).fold min (Ideal.ofBits .f32 acc) f)
      (funext fun j => congrArg x (funext fun ax => Fin.ext (by
        match ax with
        | ⟨0, _⟩ => rfl
        | ⟨1, _⟩ => rfl))))

/-! ## The product of the two clouds' coordinates, at an index -/

theorem lhs_axis0 (i : S1024x1024.Idx) (q : dot_S1024x3_S1024x3_S1024x1024_1_1_0_0_n_n.contr.Idx) :
    (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide),
    dif_pos (show (0 : Fin S1024x3.rank) ∈ dot_S1024x3_S1024x3_S1024x1024_1_1_0_0_n_n.lhsNonContracting by decide)]
  rfl
theorem lhs_axis1 (i : S1024x1024.Idx) (q : dot_S1024x3_S1024x3_S1024x1024_1_1_0_0_n_n.contr.Idx) :
    (dot_S1024x3_S1024x3_S1024x1024_1_1_0_0_n_n.lhsIdx i q 1).val = (q ⟨0, by decide⟩).val :=
  dot_S1024x3_S1024x3_S1024x1024_1_1_0_0_n_n.lhsIdx_val_of_single rfl i q
theorem rhs_axis0 (i : S1024x1024.Idx) (q : dot_S1024x3_S1024x3_S1024x1024_1_1_0_0_n_n.contr.Idx) :
    (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide),
    dif_pos (show (0 : Fin S1024x3.rank) ∈ dot_S1024x3_S1024x3_S1024x1024_1_1_0_0_n_n.rhsNonContracting by decide)]
  rfl
theorem rhs_axis1 (i : S1024x1024.Idx) (q : dot_S1024x3_S1024x3_S1024x1024_1_1_0_0_n_n.contr.Idx) :
    (dot_S1024x3_S1024x3_S1024x1024_1_1_0_0_n_n.rhsIdx i q 1).val = (q ⟨0, by decide⟩).val :=
  dot_S1024x3_S1024x3_S1024x1024_1_1_0_0_n_n.rhsIdx_val_of_single rfl i q

/-- The matrix product into the zero splat, contracted over the coordinate axis of both operands, read at `(n, k)`:
    the sum over the three coordinates of row `n` of the first times row `k` of the second. -/
theorem matmul_at (a b : FVec Ideal S1024x3 .f32) (n k : Fin 1024) :
    matmul dot_S1024x3_S1024x3_S1024x1024_1_1_0_0_n_n none a b (constant (F := Ideal) S1024x1024 .f32 0x00000000#32) (ix2 n k)
      = ∑ d : Fin 3, a (ix2 n d) * b (ix2 k d) := by
  simp only [matmul]
  rw [Ideal.matmul_constant_zero_apply,
    ← Equiv.sum_comp (contrEquiv1 dot_S1024x3_S1024x3_S1024x1024_1_1_0_0_n_n 3 rfl rfl).symm]
  refine Finset.sum_congr rfl fun d _ => ?_
  have hd := contrEquiv1_symm_val dot_S1024x3_S1024x3_S1024x1024_1_1_0_0_n_n 3 rfl rfl d
  have el : dot_S1024x3_S1024x3_S1024x1024_1_1_0_0_n_n.lhsIdx (ix2 n k)
      ((contrEquiv1 dot_S1024x3_S1024x3_S1024x1024_1_1_0_0_n_n 3 rfl rfl).symm d) = ix2 n d :=
    funext fun ax => Fin.ext (by
      match ax with
      | ⟨0, _⟩ => exact lhs_axis0 _ _
      | ⟨1, _⟩ => exact (lhs_axis1 _ _).trans hd)
  have er : dot_S1024x3_S1024x3_S1024x1024_1_1_0_0_n_n.rhsIdx (ix2 n k)
      ((contrEquiv1 dot_S1024x3_S1024x3_S1024x1024_1_1_0_0_n_n 3 rfl rfl).symm d) = ix2 k d :=
    funext fun ax => Fin.ext (by
      match ax with
      | ⟨0, _⟩ => exact rhs_axis0 _ _
      | ⟨1, _⟩ => exact (rhs_axis1 _ _).trans hd)
  rw [el, er]

/-! ## The squared distances -/

/-- The cloud a `[1024, 3]` array holds: point `n`, coordinate `d`. -/
def cl (a : FVec Ideal S1024x3 .f32) : Cloud := fun n d => a (ix2 n d)

/-- A one-element block with its unit axis dropped holds the block's cloud. -/
theorem cl_drop (v : Vec Ideal S1x1024x3 .f32) (h : S1x1024x3.ShapeCasts S1024x3) :
    cl (shapeCast S1024x3 v h) = blkCloud v :=
  funext fun n => funext fun d => shapeCast_1ab_ab_apply v h n d

/-- The array of squared distances in its expanded form — the column of `|p n|²` spread over the columns, plus the row
    of `|q k|²` spread over the rows, minus twice the matrix of inner products — read at `(n, k)`. -/
theorem dist_at (a b : FVec Ideal S1024x3 .f32) (hr : S1024x3.Reduces [1] S1024) (hφ : FKind.Formats .f32)
    (hacc : (0x00000000#32 : BitVec 32) = FKind.add.neutral .f32 hφ) (hc1 : S1024.ShapeCasts S1024x1)
    (hc2 : S1024x1.ShapeCasts S1x1024) (hb1 : S1024x1.Broadcasts S1024x1024) (hb2 : S1x1024.Broadcasts S1024x1024)
    (n k : Fin 1024) :
    subf
        (addf
          (broadcastTo S1024x1024 (shapeCast S1024x1 (multiReduction .add [1] S1024 (mulf a a) 0x00000000#32 hr hφ hacc) hc1) hb1)
          (broadcastTo S1024x1024
            (shapeCast S1x1024 (shapeCast S1024x1 (multiReduction .add [1] S1024 (mulf b b) 0x00000000#32 hr hφ hacc) hc1) hc2) hb2))
        (mulf (broadcast S1024x1024 (Scalar.ofBits (F := Ideal) .f32 0x40000000#32))
          (matmul dot_S1024x3_S1024x3_S1024x1024_1_1_0_0_n_n none a b (constant (F := Ideal) S1024x1024 .f32 0x00000000#32)))
        (ix2 n k)
      = dist (cl a) (cl b) n k := by
  rw [subf_apply, addf_apply, mulf_apply, broadcast_apply, bcast_a1_ab, cast_a_a1, sum_axis1, broadcastTo_1b_ab_apply,
    cast_a1_1a, cast_a_a1, sum_axis1, matmul_at]
  rfl

/-! ## The two families of minima and their sums -/

/-- The sum of a vector as the kernel takes it — the vector laid as one row, summed along the row, the one-element
    result laid as a `[1, 1]` array and its element extracted — is the sum of the vector's entries. -/
theorem total_at {a : ℕ} (x : FVec Ideal ⟨1, ![a]⟩ .f32) (hc : (⟨1, ![a]⟩ : Shape).ShapeCasts ⟨2, ![1, a]⟩)
    (hr : (⟨2, ![1, a]⟩ : Shape).Reduces [1] ⟨1, ![1]⟩) (hφ : FKind.Formats .f32)
    (hacc : (0x00000000#32 : BitVec 32) = FKind.add.neutral .f32 hφ)
    (hc' : (⟨1, ![1]⟩ : Shape).ShapeCasts ⟨2, ![1, 1]⟩)
    (hp : ∀ ax, (![0, 0] : Fin 2 → Nat) ax < (⟨2, ![1, 1]⟩ : Shape).size ax) :
    extractAt ![0, 0]
        (shapeCast ⟨2, ![1, 1]⟩ (multiReduction .add [1] ⟨1, ![1]⟩ (shapeCast ⟨2, ![1, a]⟩ x hc) 0x00000000#32 hr hφ hacc) hc') hp
      = ∑ k : Fin a, x (ix1 k) := by
  rw [extract_00, shapeCast_a_1a_apply, sum_axis1]
  exact Finset.sum_congr rfl fun k _ => shapeCast_a_1a_apply x hc 0 k

/-! ## The two payloads -/

/-- The value the first grid step of a run stores: zero. -/
theorem pay1_apply (i : Cert.KernelIdeal.S1x1x1.Idx) : Cert.KernelIdeal.Gen.k0_pay1 (F := Ideal) i = 0 := by
  unfold Gen.k0_pay1
  exact Ideal.ofBits_zero_f32

/-- The value every grid step stores: what the accumulator held plus the batch element's loss. -/
theorem pay2_apply (v3 v5 : Vec Ideal Cert.KernelIdeal.S1x1024x3 .f32) (v31 : Vec Ideal Cert.KernelIdeal.S1x1x1 .f32)
    (i : Cert.KernelIdeal.S1x1x1.Idx) :
    Cert.KernelIdeal.Gen.k0_pay2 (F := Ideal) v3 v5 v31 i
      = v31 i + Cert.Chamfer.pairLoss (Cert.Chamfer.blkCloud v3) (Cert.Chamfer.blkCloud v5) := by
  unfold Gen.k0_pay2
  dsimp only
  rw [addf_apply, broadcast_apply, shapeCast_self, Ideal.scalar_addf_def]
  refine congrArg (v31 i + ·) ?_
  unfold pairLoss
  refine congrArg₂ (· + ·) ?_ ?_
  · refine (total_at _ _ _ _ _ _ _).trans (Finset.sum_congr rfl fun k _ => ?_)
    refine (min_axis0 _ _ _ _ _ k).trans ?_
    unfold nearP top
    refine congrArg (fun f : Fin 1024 → EReal => (Finset.univ : Finset (Fin 1024)).fold min
      (Ideal.ofBits .f32 0x7F800000#32) f) (funext fun n => ?_)
    refine (dist_at _ _ _ _ _ _ _ _ _ n k).trans ?_
    rw [cl_drop, cl_drop]
  · refine (total_at _ _ _ _ _ _ _).trans (Finset.sum_congr rfl fun n _ => ?_)
    refine (min_axis1 _ _ _ _ _ n).trans ?_
    unfold nearQ top
    refine congrArg (fun f : Fin 1024 → EReal => (Finset.univ : Finset (Fin 1024)).fold min
      (Ideal.ofBits .f32 0x7F800000#32) f) (funext fun k => ?_)
    refine (dist_at _ _ _ _ _ _ _ _ _ n k).trans ?_
    rw [cl_drop, cl_drop]

end Cert.Chamfer.Pay

end
-- ==== Proof.ChamferResult.lean ====
/-
  The last steps both programs share, and the sum over the two-entry array of partial sums.

  After the sum `S` of the 128 losses is formed, both programs compute `S / 1024 + kl`, where
  `kl = ((−½ · (0 + Σ (1 + lv − mu·mu − exp lv))) / 32) · 0.1` over the two 128 × 32 arrays `mu` and `lv`.  The
  literals are kept as the words the programs print; none of them is ever evaluated, because both programs apply the
  same operations to the same words in the same order.  `result` is that common term as a function of `S`, `mu`
  and `lv`; a program's final value is shown to be `result` of the right `S`, and nothing of `result` is opened.
-/
import proofs.«141618_j54142357734099_1_alg».proof.Proof.ChamferSpec

noncomputable section

namespace Cert.Chamfer

open Idealize.ShloMosaic Idealize.ShloMosaic.ValueIdx

/-- The scalar shape and the shape of the two small arrays. -/
abbrev Sc : Shape := ⟨0, ![]⟩
abbrev Sm : Shape := ⟨2, ![128, 32]⟩

/-- The Kullback–Leibler term, as the chain of operations both programs print. -/
def klTerm (hb : Sc.BroadcastsInDim Sm (![] : Fin 0 → Fin Sm.rank)) (hr : Sm.ReducesTo [0, 1] Sc) (h0 : 0 < Sc.numel)
    (mu lv : FVec Ideal Sm .f32) : FVec Ideal Sc .f32 :=
  mulf
    (Host.divf
      (mulf (constant (F := Ideal) Sc .f32 0xBF000000#32)
        (Host.reduceAdd
          (subf
            (subf (addf (broadcastInDim Sm ![] hb (constant (F := Ideal) Sc .f32 0x3F800000#32)) lv) (mulf mu mu))
            (Host.exp lv))
          (constant (F := Ideal) Sc .f32 0x00000000#32) hr h0))
      (constant (F := Ideal) Sc .f32 0x42000000#32))
    (constant (F := Ideal) Sc .f32 0x3DCCCCCD#32)

/-- The final value: the loss sum divided by 1024, plus the Kullback–Leibler term. -/
def result (hb : Sc.BroadcastsInDim Sm (![] : Fin 0 → Fin Sm.rank)) (hr : Sm.ReducesTo [0, 1] Sc) (h0 : 0 < Sc.numel)
    (S : FVec Ideal Sc .f32) (mu lv : FVec Ideal Sm .f32) : FVec Ideal Sc .f32 :=
  addf (Host.divf S (constant (F := Ideal) Sc .f32 0x44800000#32)) (klTerm hb hr h0 mu lv)

/-- A sum over the indices of a 2 × 1 × 1 array is the sum of its two entries. -/
theorem sum_two_entries {M : Type*} [AddCommMonoid M] (f : (⟨3, ![2, 1, 1]⟩ : Shape).Idx → M) :
    ∑ i, f i = f (ix3 0 0 0) + f (ix3 1 0 0) := by
  rw [← Fin.sum_univ_two (fun c : Fin 2 => f (ix3 c 0 0))]
  refine (Fintype.sum_equiv ⟨fun c : Fin 2 => (ix3 c 0 0 : (⟨3, ![2, 1, 1]⟩ : Shape).Idx), fun i => i 0, fun c => rfl,
    fun i => ?_⟩ _ _ (fun c => rfl)).symm
  funext a
  match a with
  | ⟨0, _⟩ => rfl
  | ⟨1, _⟩ => exact Fin.ext (by have h : (i 1).val < 1 := (i 1).isLt; show 0 = (i 1).val; omega)
  | ⟨2, _⟩ => exact Fin.ext (by have h : (i 2).val < 1 := (i 2).isLt; show 0 = (i 2).val; omega)

end Cert.Chamfer

end
-- ==== Proof.KernelValue.lean ====
/-
  The kernel's result, read off its run at the exact instance.

  Point `t` of the grid adds the loss of batch element `t` to the accumulator block, which restarts from zero at
  `t = 0` and `t = 64`: so after point `t` the block holds the sum of the losses from the start of `t`'s run of 64
  up to `t` (`outsAt_eq`, by induction on the point).  The block is written back to the two-entry array only after
  the last point of each run, when it holds the whole run's sum; the two flushing points cover the array, so the array
  ends at the two run sums (`final`).  The host then adds the two entries, which is the sum of all 128 losses
  (`sum_partials`), divides by 1024 and adds the Kullback–Leibler term of the two small arrays, which no grid point
  touches (`tail_eq`).  `run` posts this value and the unchanged arguments on the kernel's run.
-/
import proofs.«141618_j54142357734099_1_alg».proof.Proof.KernelPieces
import proofs.«141618_j54142357734099_1_alg».proof.Proof.PayValue
import proofs.«141618_j54142357734099_1_alg».proof.Proof.ChamferResult
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.Chamfer.Kern

open Cert.KernelIdeal Cert.KernelIdeal.Gen Cert.Chamfer

variable (m : (ℓ : Loc nD τ sig) → Buf (Elt Ideal) ℓ) (ρ : Dev nD → PrngReg)

/-- The two point arrays as launched (argument 1 is the cloud `p` of every batch element, argument 0 the cloud `q`),
    and the two input blocks of a grid point. -/
abbrev xarr (c : Dev nD) : Arr := m ((c : Thread nD τ).loc main_arg1)
abbrev rarr (c : Dev nD) : Arr := m ((c : Thread nD τ).loc main_arg0)
abbrev xblk (c : Dev nD) (t : Fin cfg0.N) : Vec Ideal S1x1024x3 .f32 := iblk m c 0 t
abbrev rblk (c : Dev nD) (t : Fin cfg0.N) : Vec Ideal S1x1024x3 .f32 := iblk m c 1 t

theorem cloud_xblk (c : Dev nD) (t : Fin cfg0.N) : blkCloud (xblk m c t) = cloud (xarr m c) ⟨t.val, lt128 t⟩ :=
  funext fun n => funext fun d => blk0_apply m c t n d
theorem cloud_rblk (c : Dev nD) (t : Fin cfg0.N) : blkCloud (rblk m c t) = cloud (rarr m c) ⟨t.val, lt128 t⟩ :=
  funext fun n => funext fun d => blk1_apply m c t n d

/-- The loss the body computes from the two blocks of point `t` is the loss of batch element `t`. -/
theorem loss_blk (c : Dev nD) (t : Fin cfg0.N) :
    pairLoss (blkCloud (xblk m c t)) (blkCloud (rblk m c t)) = lossNat (xarr m c) (rarr m c) t.val := by
  rw [cloud_xblk, cloud_rblk, lossNat_of_lt _ _ _ (lt128 t)]
  rfl

/-- After point `n` the accumulator block holds the running sum of its run, at its one index. -/
theorem outsAt_eq (c : Dev nD) : ∀ (n : ℕ) (h : n < cfg0.N) (i : S1x1x1.Idx),
    outsAt0 m c n h i = accum (lossNat (xarr m c) (rarr m c)) n
  | 0, h, i => by
    refine (congrFun (outsAt0_A m c ⟨0, h⟩ (Nat.zero_mod 64)) i).trans ?_
    refine (congrFun (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr (Nat.zero_mod 64)) (xblk m c ⟨0, h⟩) (rblk m c ⟨0, h⟩)) i).trans ?_
    refine (Pay.pay2_apply (xblk m c ⟨0, h⟩) (rblk m c ⟨0, h⟩) (k0_pay1 (F := Ideal)) i).trans ?_
    rw [Pay.pay1_apply, loss_blk]
    rfl
  | n + 1, h, i => by
    by_cases h0 : (n + 1) % 64 = 0
    · refine (congrFun (outsAt0_A m c ⟨n + 1, h⟩ h0) i).trans ?_
      refine (congrFun (out_A (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) ((hcond0_0 ⟨n + 1, h⟩).mpr h0) (xblk m c ⟨n + 1, h⟩)
        (rblk m c ⟨n + 1, h⟩)) i).trans ?_
      refine (Pay.pay2_apply (xblk m c ⟨n + 1, h⟩) (rblk m c ⟨n + 1, h⟩) (k0_pay1 (F := Ideal)) i).trans ?_
      rw [Pay.pay1_apply, loss_blk]
      show _ = accum (lossNat (xarr m c) (rarr m c)) (n + 1)
      unfold accum
      rw [if_pos h0]
    · refine (congrFun (outsAt0_B m c ⟨n + 1, h⟩ h0) i).trans ?_
      refine (congrFun (out_B (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => h0 ((hcond0_0 ⟨n + 1, h⟩).mp hh)) (xblk m c ⟨n + 1, h⟩)
        (rblk m c ⟨n + 1, h⟩) (outsAt0 m c n (Nat.lt_of_succ_lt h))) i).trans ?_
      refine (Pay.pay2_apply (xblk m c ⟨n + 1, h⟩) (rblk m c ⟨n + 1, h⟩) (outsAt0 m c n (Nat.lt_of_succ_lt h)) i).trans ?_
      rw [loss_blk, outsAt_eq c n (Nat.lt_of_succ_lt h) i]
      show _ = accum (lossNat (xarr m c) (rarr m c)) (n + 1)
      conv_rhs => unfold accum
      rw [if_neg h0]

/-- The two run sums, as contents of the two-entry array. -/
def partials (c : Dev nD) : Vec Ideal S2x1x1 .f32 :=
  fun i => (∑ j ∈ Finset.range 64, lossNat (xarr m c) (rarr m c) (64 * (i 0).val + j) : EReal)

/-- A flushing point is the last of its run: what it writes back is its entry of the run sums. -/
theorem flushed_eq (c : Dev nD) (t : Fin cfg0.N) (hf : (cfg0.win 2).flush t = true) :
    (dats m 0 c).flushed 2 t = ((cfg0.win 2).blk t).view.read (Elt Ideal) (partials m c) := by
  have h63 : t.val % 64 = 63 := (flush0_2 t).mp hf
  obtain ⟨-, -, -, -, -, -, e0, -, -⟩ := idx_facts t
  show (cfg0.win 2).cut (grid0.coords t) ((dats m 0 c).after 2 t) = _
  rw [after0_2]
  funext j
  show outsAt0 m c t.val t.isLt j = partials m c (((cfg0.win 2).blk t).view.emb j)
  rw [outsAt_eq]
  have hj : (j 0).val < 1 := (j 0).isLt
  have e : ((((cfg0.win 2).blk t).view.emb j) 0).val = t.val / 64 := by
    show win0_2.index t (0 : Fin 3) * 1 + 1 * (j 0).val = t.val / 64
    omega
  unfold partials
  dsimp only
  rw [e]
  obtain ⟨q, hq⟩ : ∃ q, t.val = 64 * q + 63 := ⟨t.val / 64, by omega⟩
  rw [hq, accum_last, show (64 * q + 63) / 64 = q by omega]

/-- The last point of run `q`. -/
def lastOf (q : Fin 2) : Fin cfg0.N := ⟨64 * q.val + 63, by
  have := q.isLt; show 64 * q.val + 63 < grid0.N; rw [N_0]; omega⟩

/-- The array ends at the two run sums. -/
theorem final (c : Dev nD) : (dats m 0 c).arrAt 2 cfg0.N = partials m c :=
  (dats m 0 c).arrAt_eq_of_cover 2 (partials m c) (flushed_eq m c) fun i => by
    have hi : (i 0).val < 2 := (i 0).isLt
    have h1 : (i 1).val < 1 := (i 1).isLt
    have h2 : (i 2).val < 1 := (i 2).isLt
    refine ⟨lastOf ⟨(i 0).val, hi⟩, (flush0_2 _).mpr (by show (64 * (i 0).val + 63) % 64 = 63; omega), ?_⟩
    obtain ⟨-, -, -, -, -, -, e0, e1, e2⟩ := idx_facts (lastOf ⟨(i 0).val, hi⟩)
    have ev : (lastOf ⟨(i 0).val, hi⟩).val = 64 * (i 0).val + 63 := rfl
    rw [mem_blk]
    intro a
    match a with
    | ⟨0, _⟩ =>
      show win0_2.index (lastOf ⟨(i 0).val, hi⟩) (0 : Fin 3) * 1 ≤ (i 0).val
        ∧ (i 0).val < win0_2.index (lastOf ⟨(i 0).val, hi⟩) (0 : Fin 3) * 1 + 1
      omega
    | ⟨1, _⟩ =>
      show win0_2.index (lastOf ⟨(i 0).val, hi⟩) (1 : Fin 3) * 1 ≤ (i 1).val
        ∧ (i 1).val < win0_2.index (lastOf ⟨(i 0).val, hi⟩) (1 : Fin 3) * 1 + 1
      omega
    | ⟨2, _⟩ =>
      show win0_2.index (lastOf ⟨(i 0).val, hi⟩) (2 : Fin 3) * 1 ≤ (i 2).val
        ∧ (i 2).val < win0_2.index (lastOf ⟨(i 0).val, hi⟩) (2 : Fin 3) * 1 + 1
      omega

/-- The host's sum of the two entries, from zero, is the sum of all 128 losses. -/
theorem sum_partials (c : Dev nD) :
    Host.reduceAdd (partials m c) (constant (F := Ideal) S_ .f32 0x00000000#32) reducesTo_S2x1x1_S_d0_1_2 h_S_
      = fun _ => lossSum (xarr m c) (rarr m c) := by
  funext i
  simp only [Host.reduceAdd, Ideal.hostReduceAdd_def]
  rw [Ideal.hostReduceAdd_total reducesTo_S2x1x1_S_d0_1_2 (fun b => b.elim0)]
  show Ideal.ofBits .f32 0x00000000#32 + ∑ i : S2x1x1.Idx, partials m c i = _
  rw [Ideal.ofBits_zero_f32, zero_add, sum_two_entries]
  exact sum_runs (xarr m c) (rarr m c)

/-- The value the kernel returns: the common final form at the sum of the losses and at the two small arrays as
    launched. -/
abbrev value (c : Dev nD) : Buf (Elt Ideal) ((c : Thread nD τ).loc main_v13) :=
  result bcast_S_S128x32 reducesTo_S128x32_S_d0_1 h_S_ (fun _ => lossSum (xarr m c) (rarr m c))
    (m ((c : Thread nD τ).loc main_arg2)) (m ((c : Thread nD τ).loc main_arg3))

/-- The host operations after the region, applied to the array of run sums and to the two small arrays, which the
    region leaves as launched. -/
theorem tail_eq (c : Dev nD) :
    Pipeline.afterTail₀ cfgs (dats m) 0 (V0 m) [hostOps1] c main_v13 = value m c := by
  have e0 : Pipeline.withArrays (cfgs 0).spec c (V0 m c) (fun w => (dats m 0 c).arrAt w (cfgs 0).N) (Proc.devRef .tc main_v0)
      = partials m c := (Pipeline.withArrays_arr spec0 launch0.win.arr_inj c _ _ 2).trans (final m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v13) = _
  after_results
  rw [e0, e2, e3, sum_partials]
  rfl

/-- The kernel's run: it ends with its result at `value` and its four arguments unchanged. -/
theorem run : θ_run defs (onTc (τ := τ) (main (F := Ideal))) ⟨m, fun _ => 0, ρ⟩ (fun r => ∀ c : Dev nD,
      r.2.mem ((c.tc : Thread nD τ).loc main_v13) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v13 (Pipeline.mem_restRefs_of main_v13 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Chamfer.Kern

end
-- ==== Proof.RefValue.lean ====
/-
  The reference program's sum of minima, read as the specification's sum of losses.

  The program forms, for every batch element, the squared norms of both clouds' points, their inner products, and from
  them the squared distances in expanded form; it takes the minimum of the distances along each of the two point axes,
  sums every minimum of the first family, every minimum of the second, and adds the two totals. Each stage is read at
  a symbolic index, so no sum or minimum is ever unfolded.
-/
import proofs.«141618_j54142357734099_1_alg».proof.Proof.Gen.ReferenceIdeal.Read
import proofs.«141618_j54142357734099_1_alg».proof.Proof.ChamferSpec
import Idealize.ShloMosaic.Lib.ValueIdx
import Idealize.ShloMosaic.Lib.Pipeline.Value
import Idealize.ShloMosaic.PureOps.Ideal.Laws
import Idealize.ShloMosaic.PureOps.Reduce

noncomputable section

namespace Cert.Chamfer.Ref

open Cert.ReferenceIdeal Cert.ReferenceIdeal.Gen Cert.ReferenceIdeal.Read Idealize.ShloMosaic Idealize.ShloMosaic.ValueIdx
  Idealize.ShloMosaic.StableHlo Cert.Chamfer

/-- The type of each of the two arguments: 128 clouds of 1024 points in 3-space. -/
abbrev In : Type := (⟨S128x1024x3, .f32⟩ : BufTy).Contents (Elt Ideal)

/-- The squared norm of point `n` of batch element `b` of the second argument. -/
theorem v1_apply (x1 : In) (b : Fin 128) (n : Fin 1024) :
    val_main_v1 (F := Ideal) x1 (ix2 b n) = sqn (cloud x1 b) n := by
  rw [val_main_v1_apply, val_main_cst_apply]
  simp only [val_main_v0_apply, Ideal.ofBits_def, Ideal.ofBits_zero_f32, zero_add, Ideal.mulf_def]
  unfold sqn cloud
  refine Finset.sum_congr rfl fun d _ => ?_
  have e : idx_main_v1 (ix2 b n) d = ix3 b n d :=
    funext fun a => Fin.ext (by match a with | ⟨0, _⟩ => rfl | ⟨1, _⟩ => rfl | ⟨2, _⟩ => rfl)
  rw [e]

/-- The squared norm of point `k` of batch element `b` of the first argument. -/
theorem v3_apply (x0 : In) (b : Fin 128) (k : Fin 1024) :
    val_main_v3 (F := Ideal) x0 (ix2 b k) = sqn (cloud x0 b) k := by
  rw [val_main_v3_apply, val_main_cst_0_apply]
  simp only [val_main_v2_apply, Ideal.ofBits_def, Ideal.ofBits_zero_f32, zero_add, Ideal.mulf_def]
  unfold sqn cloud
  refine Finset.sum_congr rfl fun d _ => ?_
  have e : idx_main_v3 (ix2 b k) d = ix3 b k d :=
    funext fun a => Fin.ext (by match a with | ⟨0, _⟩ => rfl | ⟨1, _⟩ => rfl | ⟨2, _⟩ => rfl)
  rw [e]

/-- The inner product of point `n` of the second argument's cloud with point `k` of the first's. -/
theorem v4_apply (x0 x1 : In) (b : Fin 128) (n k : Fin 1024) :
    val_main_v4 (F := Ideal) x0 x1 (ix3 b n k) = dotp (cloud x1 b) (cloud x0 b) n k := by
  rw [val_main_v4_apply]
  unfold dotp cloud
  refine Finset.sum_congr rfl fun d _ => ?_
  have el : lidx_main_v4 (ix3 b n k) d = ix3 b n d :=
    funext fun a => Fin.ext (by match a with | ⟨0, _⟩ => rfl | ⟨1, _⟩ => rfl | ⟨2, _⟩ => rfl)
  have er : ridx_main_v4 (ix3 b n k) d = ix3 b k d :=
    funext fun a => Fin.ext (by match a with | ⟨0, _⟩ => rfl | ⟨1, _⟩ => rfl | ⟨2, _⟩ => rfl)
  rw [el, er]

/-- The squared distance, in expanded form, between point `n` of the second argument's cloud and point `k` of the
    first's. -/
theorem v12_apply (x0 x1 : In) (b : Fin 128) (n k : Fin 1024) :
    val_main_v12 (F := Ideal) x0 x1 (ix3 b n k) = dist (cloud x1 b) (cloud x0 b) n k := by
  rw [val_main_v12_apply, val_main_v9_apply, val_main_v11_apply, val_main_v7_apply, val_main_v8_apply,
    val_main_v5_apply, val_main_v6_apply, val_main_v10_apply, val_main_cst_1_apply, v4_apply]
  have e1 : idx_main_v5 (idx_main_v7 (ix3 b n k)) = ix2 b n :=
    funext fun a => Fin.ext (by match a with | ⟨0, _⟩ => rfl | ⟨1, _⟩ => rfl)
  have e2 : idx_main_v6 (idx_main_v8 (ix3 b n k)) = ix2 b k :=
    funext fun a => Fin.ext (by match a with | ⟨0, _⟩ => rfl | ⟨1, _⟩ => rfl)
  rw [e1, e2, v1_apply, v3_apply]
  simp only [Ideal.addf_def, Ideal.subf_def, Ideal.mulf_def, Ideal.ofBits_def]
  rfl

/-- The two one-axis reductions of the distances, as facts about the literal shapes. -/
theorem reduces_d1 : S128x1024x1024.Reduces [1] S128x1024 := by decide
theorem reduces_d2 : S128x1024x1024.Reduces [2] S128x1024 := by decide

/-- Inserting coordinate `n` on the middle axis of the index `(b, k)`. -/
theorem lift_d1 (b : Fin 128) (k n : Fin 1024) : reduces_d1.lift (ix2 b k) n = ix3 b n k :=
  funext fun a => Fin.ext (by match a with | ⟨0, _⟩ => rfl | ⟨1, _⟩ => rfl | ⟨2, _⟩ => rfl)

/-- Inserting coordinate `k` on the last axis of the index `(b, n)`. -/
theorem lift_d2 (b : Fin 128) (n k : Fin 1024) : reduces_d2.lift (ix2 b n) k = ix3 b n k :=
  funext fun a => Fin.ext (by match a with | ⟨0, _⟩ => rfl | ⟨1, _⟩ => rfl | ⟨2, _⟩ => rfl)

/-- The value every minimum starts from. -/
theorem cst_2_first : val_main_cst_2 (F := Ideal) (Shape.Idx.first h_S_) = top := rfl
theorem cst_4_first : val_main_cst_4 (F := Ideal) (Shape.Idx.first h_S_) = top := rfl

/-- For point `k` of the first argument's cloud: the least distance to a point of the second argument's cloud. -/
theorem v13_apply (x0 x1 : In) (b : Fin 128) (k : Fin 1024) :
    val_main_v13 (F := Ideal) x0 x1 (ix2 b k) = nearP (cloud x1 b) (cloud x0 b) k := by
  unfold val_main_v13
  rw [Host.reduce_eq_fold_single FloatOps.minimumf _ _ reducesTo_S128x1024x1024_S128x1024_d1 reduces_d1 h_S_,
    cst_2_first]
  unfold nearP
  have e : (val_main_v12 (F := Ideal) x0 x1 ∘ reduces_d1.lift (ix2 b k))
      = fun n : Fin 1024 => dist (cloud x1 b) (cloud x0 b) n k :=
    funext fun (n : Fin 1024) =>
      (congrArg (val_main_v12 (F := Ideal) x0 x1) (lift_d1 b k n)).trans (v12_apply x0 x1 b n k)
  rw [e]
  rfl

/-- For point `n` of the second argument's cloud: the least distance to a point of the first argument's cloud. -/
theorem v15_apply (x0 x1 : In) (b : Fin 128) (n : Fin 1024) :
    val_main_v15 (F := Ideal) x0 x1 (ix2 b n) = nearQ (cloud x1 b) (cloud x0 b) n := by
  unfold val_main_v15
  rw [Host.reduce_eq_fold_single FloatOps.minimumf _ _ reducesTo_S128x1024x1024_S128x1024_d2 reduces_d2 h_S_,
    cst_4_first]
  unfold nearQ
  have e : (val_main_v12 (F := Ideal) x0 x1 ∘ reduces_d2.lift (ix2 b n))
      = fun k : Fin 1024 => dist (cloud x1 b) (cloud x0 b) n k :=
    funext fun (k : Fin 1024) =>
      (congrArg (val_main_v12 (F := Ideal) x0 x1) (lift_d2 b n k)).trans (v12_apply x0 x1 b n k)
  rw [e]
  rfl

/-- The reference's result: the sum of all minima of the first family plus the sum of all minima of the second is the
    sum over the batch of both families' sums. -/
theorem ref_sum (x0 x1 : (⟨Cert.ReferenceIdeal.S128x1024x3, .f32⟩ : BufTy).Contents (Elt Ideal)) :
    Cert.ReferenceIdeal.Read.val_main_v17 (F := Ideal) x0 x1 = fun _ => Cert.Chamfer.lossSum x1 x0 := by
  funext i
  rw [val_main_v17_apply, val_main_v14_apply, val_main_v16_apply, val_main_cst_3_apply, val_main_cst_5_apply]
  simp only [Ideal.addf_def, Ideal.ofBits_def, Ideal.ofBits_zero_f32, zero_add]
  rw [← sum_families]
  refine congrArg₂ (· + ·) (Finset.sum_congr rfl fun j _ => ?_) (Finset.sum_congr rfl fun j _ => ?_)
  · exact (congrArg (val_main_v13 (F := Ideal) x0 x1) (eq_ix2 j)).trans (v13_apply x0 x1 (j 0) (j 1))
  · exact (congrArg (val_main_v15 (F := Ideal) x0 x1) (eq_ix2 j)).trans (v15_apply x0 x1 (j 0) (j 1))

end Cert.Chamfer.Ref

end
-- ==== Proof.lean ====
/-
  The certificate's five claims.

  Both programs compute, for 128 pairs of clouds of 1024 points in 3-space, the sum over all pairs of the two-sided
  nearest-neighbour loss — for every point of one cloud the least squared distance to the other cloud, squared
  distances taken in the expanded form `|p|² + |q|² − 2⟨p, q⟩`, all these minima summed — divide it by 1024, and add a
  Kullback–Leibler term of two small arrays that both programs compute by the same operations on the same words.
  They differ only in how the 2 × 128 × 1024 minima are added up: the kernel adds, pair after pair, the pair's two
  families of minima into an accumulator that runs over 64 consecutive pairs, and then adds its two accumulators; the
  reference adds all minima of the first family over all pairs, all minima of the second family, and those two totals.
  On the extended reals addition is commutative and associative, so the two totals agree for EVERY input
  (Proof/ChamferSpec.lean): the precondition is not used by the value claim.

  The kernel's side is read off its generated frame run (Proof/KernelPieces.lean, Proof/PayValue.lean,
  Proof/KernelValue.lean), the reference's side off its generated run and read-at-an-index lemmas
  (Proof/RefValue.lean); both are posted at the one term `Cert.Chamfer.result` (Proof/ChamferResult.lean) of the sum
  of the losses and of the two small arrays.  The two frames of the kernel are the generated ones, the reference's
  frame is its generated run with the result dropped, and the idealization rewrote nothing.
-/
import proofs.«141618_j54142357734099_1_alg».proof.Defs
import proofs.«141618_j54142357734099_1_alg».proof.Proof.Gen.Kernel
import proofs.«141618_j54142357734099_1_alg».proof.Proof.Gen.Kernel.Skeleton
import proofs.«141618_j54142357734099_1_alg».proof.Proof.Gen.Kernel.Launch
import proofs.«141618_j54142357734099_1_alg».proof.Proof.Gen.Kernel.Points
import proofs.«141618_j54142357734099_1_alg».proof.Proof.Gen.Kernel.Frame
import proofs.«141618_j54142357734099_1_alg».proof.Proof.Gen.KernelIdeal
import proofs.«141618_j54142357734099_1_alg».proof.Proof.Gen.KernelIdeal.Skeleton
import proofs.«141618_j54142357734099_1_alg».proof.Proof.Gen.KernelIdeal.Launch
import proofs.«141618_j54142357734099_1_alg».proof.Proof.Gen.KernelIdeal.Points
import proofs.«141618_j54142357734099_1_alg».proof.Proof.Gen.KernelIdeal.Frame
import proofs.«141618_j54142357734099_1_alg».proof.Proof.Gen.ReferenceIdeal
import proofs.«141618_j54142357734099_1_alg».proof.Proof.Gen.Pre_finite_inputs
import proofs.«141618_j54142357734099_1_alg».proof.Proof.Gen.ReferenceIdeal.Run
import proofs.«141618_j54142357734099_1_alg».proof.Proof.Gen.ReferenceIdeal.Read
import proofs.«141618_j54142357734099_1_alg».proof.Proof.KernelValue
import proofs.«141618_j54142357734099_1_alg».proof.Proof.RefValue
import proofs.«141618_j54142357734099_1_alg».proof.Proof.ChamferResult
import Idealize.ShloMosaic.Adequacy
import Idealize.ShloMosaic.Init

noncomputable section

namespace Cert.Proof

open Idealize.ShloMosaic Idealize.ShloMosaic.TcCoe Idealize.SL.Sem

/-- The reference's final stage is the common final form at the sum of the losses: its sum of minima is that sum
    (`Cert.Chamfer.Ref.ref_sum`), and what follows it is the common chain of operations, term for term. -/
theorem ref_value (x0 x1 : (⟨Cert.ReferenceIdeal.S128x1024x3, .f32⟩ : BufTy).Contents (Elt Ideal))
    (x2 x3 : (⟨Cert.ReferenceIdeal.S128x32, .f32⟩ : BufTy).Contents (Elt Ideal)) :
    Cert.ReferenceIdeal.Read.val_main_v29 (F := Ideal) x0 x1 x2 x3
      = Cert.Chamfer.result Cert.ReferenceIdeal.Facts₀.bcast_S_S128x32 Cert.ReferenceIdeal.Facts₀.reducesTo_S128x32_S_d0_1
          Cert.ReferenceIdeal.Facts₀.h_S_ (fun _ => Cert.Chamfer.lossSum x1 x0) x2 x3 := by
  unfold Cert.ReferenceIdeal.Read.val_main_v29 Cert.ReferenceIdeal.Read.val_main_v18
  rw [Cert.Chamfer.Ref.ref_sum]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments both programs end at the common final form of the same sum of
    losses and the same two small arrays. -/
theorem algebraic : Cert.algebraic_KernelIdeal_ReferenceIdeal := by
  intro m ρ m' ρ' _ hagree
  refine ⟨fun c => Cert.Chamfer.Kern.value m c, Cert.Chamfer.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, ref_value, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
